-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x2048 : Shape := ⟨3, ![8, 2048, 2048]⟩
abbrev S4096x1 : Shape := ⟨2, ![4096, 1]⟩
abbrev S1 : Shape := ⟨1, ![1]⟩
abbrev S_ : Shape := ⟨0, ![]⟩

class Facts : Prop where
  bcast_S_S8x2048x2048 : S_.BroadcastsInDim S8x2048x2048 (![] : Fin 0 → Fin S8x2048x2048.rank)
  reducesTo_S8x2048x2048_S_d0_1_2 : S8x2048x2048.ReducesTo [0, 1, 2] S_
  h_S_ : 0 < S_.numel
  bcast_S_S4096x1 : S_.BroadcastsInDim S4096x1 (![] : Fin 0 → Fin S4096x1.rank)
  reducesTo_S4096x1_S_d0_1 : S4096x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S8x2048x2048 .f32) (main_arg1 : FVec F S8x2048x2048 .f32) (main_arg2 : FVec F S4096x1 .f32) (main_arg3 : FVec F S1 .f32) : IVec S_ 1 :=
  let main_v0 : FVec F S8x2048x2048 .f32 := Host.absf main_arg0
  let main_cst : FVec F S_ .f32 := constant S_ .f32 0x7F800000#32
  let main_v1 : FVec F S8x2048x2048 .f32 := broadcastInDim S8x2048x2048 ![] bcast_S_S8x2048x2048 main_cst
  let main_v2 : IVec S8x2048x2048 1 := cmpf .olt main_v0 main_v1
  let main_c : IVec S_ 1 := constantI S_ 1 1#1
  let main_v3 : IVec S_ 1 := (fun x v => Host.reduce IntOp.andi x v reducesTo_S8x2048x2048_S_d0_1_2 h_S_) main_v2 main_c
  let main_v4 : FVec F S8x2048x2048 .f32 := Host.absf main_arg1
  let main_cst_0 : FVec F S_ .f32 := constant S_ .f32 0x7F800000#32
  let main_v5 : FVec F S8x2048x2048 .f32 := broadcastInDim S8x2048x2048 ![] bcast_S_S8x2048x2048 main_cst_0
  let main_v6 : IVec S8x2048x2048 1 := cmpf .olt main_v4 main_v5
  let main_c_1 : IVec S_ 1 := constantI S_ 1 1#1
  let main_v7 : IVec S_ 1 := (fun x v => Host.reduce IntOp.andi x v reducesTo_S8x2048x2048_S_d0_1_2 h_S_) main_v6 main_c_1
  let main_v8 : IVec S_ 1 := andi main_v3 main_v7
  let main_v9 : FVec F S4096x1 .f32 := Host.absf main_arg2
  let main_cst_2 : FVec F S_ .f32 := constant S_ .f32 0x7F800000#32
  let main_v10 : FVec F S4096x1 .f32 := broadcastInDim S4096x1 ![] bcast_S_S4096x1 main_cst_2
  let main_v11 : IVec S4096x1 1 := cmpf .olt main_v9 main_v10
  let main_c_3 : IVec S_ 1 := constantI S_ 1 1#1
  let main_v12 : IVec S_ 1 := (fun x v => Host.reduce IntOp.andi x v reducesTo_S4096x1_S_d0_1 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S8x2048x2048 : Shape := ⟨3, ![8, 2048, 2048]⟩
abbrev S4096x1 : Shape := ⟨2, ![4096, 1]⟩
abbrev S1 : Shape := ⟨1, ![1]⟩
abbrev S2048x1 : Shape := ⟨2, ![2048, 1]⟩
abbrev S1x2048 : Shape := ⟨2, ![1, 2048]⟩
abbrev S1x1 : Shape := ⟨2, ![1, 1]⟩
abbrev S8x2048x1 : Shape := ⟨3, ![8, 2048, 1]⟩
abbrev S1x512x2048 : Shape := ⟨3, ![1, 512, 2048]⟩
abbrev S1x512x1 : Shape := ⟨3, ![1, 512, 1]⟩
abbrev S512x2048 : Shape := ⟨2, ![512, 2048]⟩
abbrev S512 : Shape := ⟨1, ![512]⟩
abbrev S512x1 : Shape := ⟨2, ![512, 1]⟩

abbrev nBuf : Space → Nat
  | .hbm => 11
  | .vmem => 11
  | .smem => 0
  | _ => 0

abbrev bufTy : (tb : Table) → Fin (tcTables nBuf tb) → BufTy
  | .hbm, ⟨0, _⟩ => ⟨S8x2048x2048, .f32⟩
  | .hbm, ⟨1, _⟩ => ⟨S8x2048x2048, .f32⟩
  | .hbm, ⟨2, _⟩ => ⟨S4096x1, .f32⟩
  | .hbm, ⟨3, _⟩ => ⟨S1, .f32⟩
  | .hbm, ⟨4, _⟩ => ⟨S2048x1, .f32⟩
  | .hbm, ⟨5, _⟩ => ⟨S1x2048, .f32⟩
  | .hbm, ⟨6, _⟩ => ⟨S2048x1, .f32⟩
  | .hbm, ⟨7, _⟩ => ⟨S1x2048, .f32⟩
  | .hbm, ⟨8, _⟩ => ⟨S1x1, .f32⟩
  | .hbm, ⟨9, _⟩ => ⟨S8x2048x2048, .f32⟩
  | .hbm, ⟨10, _⟩ => ⟨S8x2048x1, .f32⟩
  | .local _ .vmem, ⟨0, _⟩ => ⟨S1x512x2048, .f32⟩
  | .local _ .vmem, ⟨1, _⟩ => ⟨S1x512x2048, .f32⟩
  | .local _ .vmem, ⟨2, _⟩ => ⟨S1x512x2048, .f32⟩
  | .local _ .vmem, ⟨3, _⟩ => ⟨S1x512x2048, .f32⟩
  | .local _ .vmem, ⟨4, _⟩ => ⟨S1x2048, .f32⟩
  | .local _ .vmem, ⟨5, _⟩ => ⟨S1x2048, .f32⟩
  | .local _ .vmem, ⟨6, _⟩ => ⟨S1x1, .f32⟩
  | .local _ .vmem, ⟨7, _⟩ => ⟨S1x512x2048, .f32⟩
  | .local _ .vmem, ⟨8, _⟩ => ⟨S1x512x2048, .f32⟩
  | .local _ .vmem, ⟨9, _⟩ => ⟨S1x512x1, .f32⟩
  | .local _ .vmem, ⟨10, _⟩ => ⟨S1x512x1, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  slices_S4096x1_S2048x1_0_0 : S4096x1.Slices ![0, 0] S2048x1
  shapeCasts_S2048x1_S1x2048 : S2048x1.ShapeCasts S1x2048
  slices_S4096x1_S2048x1_2048_0 : S4096x1.Slices ![2048, 0] S2048x1
  shapeCasts_S1_S1x1 : S1.ShapeCasts S1x1
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x2048_S512x2048 : S1x2048.Broadcasts S512x2048
  reduces_S512x2048_S512 : S512x2048.Reduces [1] S512
  shapeCasts_S512_S512x1 : S512.ShapeCasts S512x1
  broadcasts_S1x1_S512x1 : S1x1.Broadcasts S512x1
  broadcasts_S512x1_S512x2048 : S512x1.Broadcasts S512x2048
  shapeCasts_S512x2048_S1x512x2048 : S512x2048.ShapeCasts S1x512x2048
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S8x2048x2048.size a
  hwx0_0 : ∀ i : grid0.Coords, EltTy.bits .f32 = 32 ∨ (Rect.block (s := S8x2048x2048) S1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x2048.size a ≤ S8x2048x2048.size a
  hwx0_1 : ∀ i : grid0.Coords, EltTy.bits .f32 = 32 ∨ (Rect.block (s := S8x2048x2048) S1x512x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x2048.size a ≤ S8x2048x2048.size a
  hwx0_5 : ∀ i : grid0.Coords, EltTy.bits .f32 = 32 ∨ (Rect.block (s := S8x2048x2048) S1x512x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x1.size a ≤ S8x2048x1.size a
  hwx0_6 : ∀ i : grid0.Coords, EltTy.bits .f32 = 32 ∨ (Rect.block (s := S8x2048x1) S1x512x1.size (cc0_transform_6 i) (hinb0_6 i)).WholeWords (EltTy.packing .f32)

variable [Facts₀]

abbrev win0_0 : Pipeline.Window sig grid0 :=
  Pipeline.Window.ofSpec (Memref.whole main_arg0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5_0) S1x512x2048.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5_1) S1x512x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x2048x2048 : Shape := ⟨3, ![8, 2048, 2048]⟩
abbrev S4096x1 : Shape := ⟨2, ![4096, 1]⟩
abbrev S1 : Shape := ⟨1, ![1]⟩
abbrev S2048x1 : Shape := ⟨2, ![2048, 1]⟩
abbrev S8x2048x1 : Shape := ⟨3, ![8, 2048, 1]⟩
abbrev S1x1x1 : Shape := ⟨3, ![1, 1, 1]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x2048x2048, .f32⟩
  | .hbm, ⟨2, _⟩ => ⟨S4096x1, .f32⟩
  | .hbm, ⟨3, _⟩ => ⟨S1, .f32⟩
  | .hbm, ⟨4, _⟩ => ⟨S2048x1, .f32⟩
  | .hbm, ⟨5, _⟩ => ⟨S2048x1, .f32⟩
  | .hbm, ⟨6, _⟩ => ⟨S8x2048x1, .f32⟩
  | .hbm, ⟨7, _⟩ => ⟨S8x2048x1, .f32⟩
  | .hbm, ⟨8, _⟩ => ⟨S8x2048x1, .f32⟩
  | .hbm, ⟨9, _⟩ => ⟨S1x1x1, .f32⟩
  | .hbm, ⟨10, _⟩ => ⟨S8x2048x1, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S8x2048x2048, .f32⟩
  | .hbm, ⟨21, _⟩ => ⟨S8x2048x2048, .f32⟩
  | .hbm, ⟨22, _⟩ => ⟨S8x2048x2048, .f32⟩
  | .hbm, ⟨23, _⟩ => ⟨S8x2048x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  slices_S4096x1_S2048x1_0_0 : S4096x1.Slices ![0, 0] S2048x1
  slices_S4096x1_S2048x1_2048_0 : S4096x1.Slices ![2048, 0] S2048x1
  bcast_S1_S1x1x1_2 : S1.BroadcastsInDim S1x1x1 (![2] : Fin 1 → Fin S1x1x1.rank)
  bcast_S1x1x1_S8x2048x1_0_1_2 : S1x1x1.BroadcastsInDim S8x2048x1 (![0, 1, 2] : Fin 3 → Fin S8x2048x1.rank)
  bcast_S_S8x2048x1 : S_.BroadcastsInDim S8x2048x1 (![] : Fin 0 → Fin S8x2048x1.rank)
  bcast_S8x2048x1_S8x2048x2048_0_1_2 : S8x2048x1.BroadcastsInDim S8x2048x2048 (![0, 1, 2] : Fin 3 → Fin S8x2048x2048.rank)
  dot_S8x2048x2048_S2048x1_S8x2048x1_2_0_01_1_n_n_wf : DotDims.WF S8x2048x2048 S2048x1 S8x2048x1 [2] [0] [0, 1] [1] [] []

variable [Facts₀]

def dot_S8x2048x2048_S2048x1_S8x2048x1_2_0_01_1_n_n : DotDims S8x2048x2048 S2048x1 S8x2048x1 where
  lhsContracting := [2]
  rhsContracting := [0]
  lhsNonContracting := [0, 1]
  rhsNonContracting := [1]
  lhsBatch := []
  rhsBatch := []
  wf := dot_S8x2048x2048_S2048x1_S8x2048x1_2_0_01_1_n_n_wf

class Facts : Prop extends Facts₀ where

variable [Facts]
-- ==== Proof.GateBlendSpec.lean ====
/-
  The gate blend, as functions of the four argument arrays at the ideal values (extended reals, exact operations).

  Inputs: two hidden-state arrays `orig`, `dag` of shape [8, 2048, 2048] (batch, time, feature), a weight column `w` of
  shape [4096, 1] whose first 2048 rows weigh `orig`'s features and whose last 2048 rows weigh `dag`'s, and a bias `b`
  of shape [1].  For a batch `p` and a time step `q`

      logit p q = (Σ_k orig[p, q, k] · w[k, 0]) + (Σ_k dag[p, q, k] · w[2048 + k, 0]) + b[0]
      gate  p q = 1 / (1 + exp (− logit p q))

  and the two results are the blend `orig + gate · (dag − orig)`, of shape [8, 2048, 2048], and the gates themselves, of
  shape [8, 2048, 1].  Nothing here needs the inputs to be finite: the sums are taken in the extended reals as they stand,
  and both programs add the three summands of the logit in the same order.
-/
import Idealize.ShloMosaic.PureOps.Ideal
import Idealize.ShloMosaic.PureOps.Ideal.Laws
import Idealize.ShloMosaic.Lib.ValueIdx
import Idealize.ShloMosaic.Lib.IdealHost

noncomputable section

namespace Cert.GateBlend

open Idealize.ShloMosaic Idealize.ShloMosaic.ValueIdx
open scoped BigOperators

/-- The hidden states' shape: batch 8, time 2048, feature 2048. -/
abbrev Hidden : Shape := ⟨3, ![8, 2048, 2048]⟩
/-- The weight column's shape: 4096 rows (the two feature ranges one after the other), one column. -/
abbrev Weights : Shape := ⟨2, ![4096, 1]⟩
/-- The bias's shape: one entry. -/
abbrev Bias : Shape := ⟨1, ![1]⟩
/-- The gates' shape: one gate per batch and time step. -/
abbrev Gates : Shape := ⟨3, ![8, 2048, 1]⟩

/-- Row `k` of the weight column's first half: the weight of feature `k` of `orig`. -/
abbrev wOrig (k : Fin 2048) : Weights.Idx := ix2 (⟨k.val, by have := k.isLt; omega⟩ : Fin 4096) (0 : Fin 1)
/-- Row `2048 + k` of the weight column: the weight of feature `k` of `dag`. -/
abbrev wDag (k : Fin 2048) : Weights.Idx := ix2 (⟨2048 + k.val, by have := k.isLt; omega⟩ : Fin 4096) (0 : Fin 1)

/-- The gate's logit at batch `p`, time `q`: the two weighted feature sums, then the bias, added in this order. -/
def logit (orig dag : Hidden.Idx → EReal) (w : Weights.Idx → EReal) (b : Bias.Idx → EReal) (p : Fin 8) (q : Fin 2048) : EReal :=
  (∑ k : Fin 2048, orig (ix3 p q k) * w (wOrig k)) + (∑ k : Fin 2048, dag (ix3 p q k) * w (wDag k)) + b (ix1 (0 : Fin 1))

/-- The gate at batch `p`, time `q`: the logistic function of the logit. -/
def gate (orig dag : Hidden.Idx → EReal) (w : Weights.Idx → EReal) (b : Bias.Idx → EReal) (p : Fin 8) (q : Fin 2048) : EReal :=
  Ideal.logistic (logit orig dag w b p q)

/-- The blended hidden states: `orig + gate · (dag − orig)`, the gate that of the entry's batch and time step. -/
def mixed (orig dag : Hidden.Idx → EReal) (w : Weights.Idx → EReal) (b : Bias.Idx → EReal) : Hidden.Idx → EReal :=
  fun i => orig i + gate orig dag w b (i 0) (i 1) * (dag i - orig i)

/-- The gates as an array of shape [8, 2048, 1]. -/
def gates (orig dag : Hidden.Idx → EReal) (w : Weights.Idx → EReal) (b : Bias.Idx → EReal) : Gates.Idx → EReal :=
  fun i => gate orig dag w b (i 0) (i 1)

/-- The logistic function spelt with a quotient: one over one plus the exponential of the negated argument.  (This is the
    definition of the logistic function on the extended reals, so the two spellings are one term.) -/
theorem logistic_eq_quotient (x : EReal) :
    Ideal.logistic x = FloatOps.hostDivf (F := Ideal) (φ := .f32) 1 (FloatOps.addf 1 (FloatOps.hostUnary .exp (FloatOps.hostNegf x))) := rfl

end Cert.GateBlend

end
-- ==== Proof.ReferenceIsBlend.lean ====
/-
  The reference computes the gate blend: its two results, read one host operation at a time, are the specification's
  `mixed` and `gates` of the four arguments.

  The reference slices the weight column into its two halves, contracts each hidden-state array with its half over the
  feature axis (at the ideal values a plain sum of products over the 2048 features), adds the two sums and then the
  broadcast bias, and forms the gate as the quotient `1 / (1 + exp (− logit))`, which is the logistic function.  The blend
  is `orig + gate · (dag − orig)` with the gate broadcast along the feature axis.  So every step is the specification's,
  once each composed index function is identified with the coordinates it names.
-/
import proofs.«152568_j8306466750965_1_alg».proof.Proof.Gen.ReferenceIdeal.Read
import proofs.«152568_j8306466750965_1_alg».proof.Proof.GateBlendSpec

noncomputable section

namespace Cert.ReferenceIdeal.RefValue

open Cert.ReferenceIdeal Cert.ReferenceIdeal.Read Cert.GateBlend
open Idealize.ShloMosaic Idealize.ShloMosaic.ValueIdx
open scoped BigOperators

/-- The left operand's index of the first contraction: batch and time of the result, feature `k`. -/
theorem lidx_v2 (i : S8x2048x1.Idx) (k : Fin 2048) : lidx_main_v2 i k = ix3 (i 0) (i 1) k :=
  funext fun a => Fin.ext (by match a with | ⟨0, _⟩ => rfl | ⟨1, _⟩ => rfl | ⟨2, _⟩ => rfl)

/-- The same for the second contraction. -/
theorem lidx_v3 (i : S8x2048x1.Idx) (k : Fin 2048) : lidx_main_v3 i k = ix3 (i 0) (i 1) k :=
  funext fun a => Fin.ext (by match a with | ⟨0, _⟩ => rfl | ⟨1, _⟩ => rfl | ⟨2, _⟩ => rfl)

/-- The first half of the weight column, read at the first contraction's right index, is row `k` of the column. -/
theorem widx_v2 (i : S8x2048x1.Idx) (k : Fin 2048) : idx_main_v0 (ridx_main_v2 i k) = wOrig k :=
  funext fun a => Fin.ext (by
    match a with
    | ⟨0, _⟩ => rfl
    | ⟨1, _⟩ => have h : (i 2).val < 1 := (i 2).isLt; show (i 2).val = 0; omega)

/-- The second half of the weight column, read at the second contraction's right index, is row `2048 + k`. -/
theorem widx_v3 (i : S8x2048x1.Idx) (k : Fin 2048) : idx_main_v1 (ridx_main_v3 i k) = wDag k :=
  funext fun a => Fin.ext (by
    match a with
    | ⟨0, _⟩ => rfl
    | ⟨1, _⟩ => have h : (i 2).val < 1 := (i 2).isLt; show (i 2).val = 0; omega)

/-- The bias, broadcast twice, is read at its one entry. -/
theorem bidx (i : S8x2048x1.Idx) : idx_main_v5 (idx_main_v6 i) = ix1 (0 : Fin 1) :=
  funext fun a => Fin.ext (by match a with | ⟨0, _⟩ => rfl)

/-- The reference's sum of the two contractions and the bias is the specification's logit. -/
theorem logit_eq (x0 x1 : S8x2048x2048.Idx → EReal) (x2 : S4096x1.Idx → EReal) (x3 : S1.Idx → EReal) (i : S8x2048x1.Idx) :
    val_main_v7 (F := Ideal) x0 x1 x2 x3 i = logit x0 x1 x2 x3 (i 0) (i 1) := by
  rw [val_main_v7_apply, val_main_v4_apply, val_main_v2_apply, val_main_v3_apply, val_main_v6_apply, val_main_v5_apply]
  simp only [val_main_v0_apply, val_main_v1_apply, lidx_v2, lidx_v3, widx_v2, widx_v3, bidx]
  rfl

/-- The reference's second result is the array of gates: its quotient `1 / (1 + exp (− logit))`, with both ones the
    pattern of the real number one, is the logistic function of the logit. -/
theorem gates_eq (x0 x1 : S8x2048x2048.Idx → EReal) (x2 : S4096x1.Idx → EReal) (x3 : S1.Idx → EReal) :
    val_main_v13 (F := Ideal) x0 x1 x2 x3 = gates x0 x1 x2 x3 := by
  funext i
  rw [val_main_v13_apply, val_main_v12_apply, val_main_cst_0_apply, val_main_v11_apply, val_main_v10_apply, val_main_cst_apply,
    val_main_v9_apply, val_main_v8_apply, logit_eq]
  simp only [Ideal.ofBits_def, Ideal.ofBits_one_f32]
  exact (logistic_eq_quotient _).symm

/-- The reference's first result is the blend: `orig` plus the gate of the entry's batch and time step (the gates
    broadcast along the features) times `dag − orig`. -/
theorem mixed_eq (x0 x1 : S8x2048x2048.Idx → EReal) (x2 : S4096x1.Idx → EReal) (x3 : S1.Idx → EReal) :
    val_main_v17 (F := Ideal) x0 x1 x2 x3 = mixed x0 x1 x2 x3 := by
  funext i
  rw [val_main_v17_apply, val_main_v16_apply, val_main_v15_apply, val_main_v14_apply, gates_eq]
  rfl

end Cert.ReferenceIdeal.RefValue

end
-- ==== Proof.BlockEntries.lean ====
/-
  What one grid point of the gate-blend kernel leaves in its two output blocks, entry by entry, at the ideal values.

  A grid point holds a block of 512 time steps of one batch: two [1, 512, 2048] blocks `x0` (of `orig`) and `x1` (of
  `dag`), the two weight rows `w0`, `w1` of shape [1, 2048] and the bias `b` of shape [1, 1].  The body multiplies each
  block row by its weight row and sums over the 2048 features — a lane sum started from the zero word, which at the
  ideal values is the plain sum of the products, zero dropping out —, adds the two sums and the bias, applies the
  logistic function, and stores the gate and the blend `x0 + gate · (x1 − x0)`.  Row `r` of either output therefore
  depends on row `r` of the two input blocks only.
-/
import proofs.«152568_j8306466750965_1_alg».proof.Proof.KernelIdealValueP
import proofs.«152568_j8306466750965_1_alg».proof.Proof.GateBlendSpec
import Idealize.ShloMosaic.Lib.Pipeline.Value
import Idealize.ShloMosaic.Lib.ValueIdx
import Idealize.ShloMosaic.PureOps.Ideal.Laws

noncomputable section

namespace Cert.KernelIdeal.BlendValue

open Cert.KernelIdeal Cert.KernelIdeal.Gen Cert.KernelIdeal.ValueP Cert.GateBlend
open Idealize.ShloMosaic Idealize.ShloMosaic.TcCoe Idealize.ShloMosaic.ValueIdx
open scoped BigOperators

/-- Entry (0, r, k) of a [1, 512, 2048] block: time step `r` of the block, feature `k`. -/
abbrev atRow (r : Fin 512) (k : Fin 2048) : S1x512x2048.Idx := ix3 (0 : Fin 1) r k
/-- Entry (0, k) of a [1, 2048] weight row. -/
abbrev atFeat (k : Fin 2048) : S1x2048.Idx := ix2 (0 : Fin 1) k
/-- The one entry of the [1, 1] bias block. -/
abbrev atBias : S1x1.Idx := ix2 (0 : Fin 1) (0 : Fin 1)

/-- A block seen as a [512, 2048] matrix, at (r, k), is the block at (0, r, k). -/
theorem cast_block_apply (P : Vec Ideal S1x512x2048 .f32) (r : Fin 512) (k : Fin 2048) :
    shapeCast S512x2048 P shapeCasts_S1x512x2048_S512x2048 (ix2 r k) = P (atRow r k) := by
  refine shapeCast_apply P _ (ix2 r k) (atRow r k) ?_
  rw [Shape.rowMajor_val_three, Shape.rowMajor_val_two]
  show ((0 : Fin 1).val * 512 + r.val) * 2048 + k.val = r.val * 2048 + k.val
  simp

/-- A weight row broadcast down the 512 rows, at (r, k), is the row's entry k. -/
theorem bcast_row_apply (W : Vec Ideal S1x2048 .f32) (r : Fin 512) (k : Fin 2048) :
    broadcastTo S512x2048 (shapeCast S1x2048 W shapeCasts_S1x2048_S1x2048) broadcasts_S1x2048_S512x2048 (ix2 r k) = W (atFeat k) := by
  rw [shapeCast_self]
  refine broadcastTo_apply W _ (ix2 r k) (atFeat k) (fun a => ?_)
  match a with
  | ⟨0, _⟩ => show (0 : Fin 1).val = (if (1 : Nat) = 1 then 0 else r.val); rw [if_pos rfl]; rfl
  | ⟨1, _⟩ => show k.val = (if (2048 : Nat) = 1 then 0 else k.val); rw [if_neg (by decide)]

/-- THE ROW SUM.  The lane sum of a block's rows against a weight row, started from the zero word, at row `r`: the sum
    over the 2048 features of the row's entries times the weights. -/
theorem rowSum_apply (P : Vec Ideal S1x512x2048 .f32) (W : Vec Ideal S1x2048 .f32) (r : Fin 512) :
    (multiReduction (F := Ideal) .add [1] S512 (mulf (shapeCast S512x2048 P shapeCasts_S1x512x2048_S512x2048)
        (broadcastTo S512x2048 (shapeCast S1x2048 W shapeCasts_S1x2048_S1x2048) broadcasts_S1x2048_S512x2048))
      0x00000000#32 reduces_S512x2048_S512 (.inl rfl) rfl) (ix1 r)
    = ∑ k : Fin 2048, P (atRow r k) * W (atFeat k) := by
  refine (Ideal.multiReduction_add_single _ 0x00000000#32 reduces_S512x2048_S512 (.inl rfl) rfl (ix1 r)).trans ?_
  show (∑ k : Fin 2048, (mulf (F := Ideal) (φ := .f32) (shapeCast S512x2048 P shapeCasts_S1x512x2048_S512x2048)
      (broadcastTo S512x2048 (shapeCast S1x2048 W shapeCasts_S1x2048_S1x2048) broadcasts_S1x2048_S512x2048))
      (reduces_S512x2048_S512.lift (ix1 r) k)) = _
  refine Finset.sum_congr rfl fun k _ => ?_
  have hl : reduces_S512x2048_S512.lift (ix1 r) k = ix2 r k :=
    funext fun a => Fin.ext (by match a with | ⟨0, _⟩ => rfl | ⟨1, _⟩ => rfl)
  rw [hl]
  show shapeCast S512x2048 P shapeCasts_S1x512x2048_S512x2048 (ix2 r k)
      * broadcastTo S512x2048 (shapeCast S1x2048 W shapeCasts_S1x2048_S1x2048) broadcasts_S1x2048_S512x2048 (ix2 r k) = _
  rw [cast_block_apply, bcast_row_apply]

/-- The three-axis zero offset of a whole-block access. -/
theorem offsets3 : (![0, 0, 0] : Fin 3 → Nat) = fun _ => 0 := funext fun a => by fin_cases a <;> rfl
/-- The two-axis zero offset of a whole-block access. -/
theorem offsets2 : (![0, 0] : Fin 2 → Nat) = fun _ => 0 := funext fun a => by fin_cases a <;> rfl

/-- The time step of a block entry, as a row number of the block. -/
abbrev rowOf (y : S1x512x2048.Idx) : Fin 512 := ⟨(y 1).val, (y 1).isLt⟩
/-- The time step of a gate-block entry, as a row number of the block. -/
abbrev rowOfGate (y : S1x512x1.Idx) : Fin 512 := ⟨(y 1).val, (y 1).isLt⟩

/-- An entry of a [1, 512, 2048] block rebuilt from its time and feature coordinates is itself: the leading axis has
    the one coordinate 0. -/
theorem entry_self (y : S1x512x2048.Idx) : ix5_0 y = y := funext fun a => Fin.ext (by
  match a with
  | ⟨0, _⟩ => have h : (y 0).val < 1 := (y 0).isLt; show 0 = (y 0).val; omega
  | ⟨1, _⟩ => rfl
  | ⟨2, _⟩ => rfl)
theorem entry_self' (y : S1x512x2048.Idx) : ix5_4 y = y := entry_self y
theorem entry_self'' (y : S1x512x2048.Idx) : ix5_5 y = y := entry_self y
/-- The row sums are read at the entry's time step. -/
theorem entry_row (y : S1x512x2048.Idx) : ix5_1 y = ix1 (rowOf y) :=
  funext fun a => Fin.ext (by match a with | ⟨0, _⟩ => rfl)
theorem entry_row' (y : S1x512x2048.Idx) : ix5_2 y = ix1 (rowOf y) :=
  funext fun a => Fin.ext (by match a with | ⟨0, _⟩ => rfl)
/-- The bias is read at its one entry. -/
theorem entry_bias (y : S1x512x2048.Idx) : ix5_3 y = atBias :=
  funext fun a => Fin.ext (by match a with | ⟨0, _⟩ => rfl | ⟨1, _⟩ => rfl)
/-- The same three for an entry of the gate block. -/
theorem gate_row (y : S1x512x1.Idx) : ix6_0 y = ix1 (rowOfGate y) :=
  funext fun a => Fin.ext (by match a with | ⟨0, _⟩ => rfl)
theorem gate_row' (y : S1x512x1.Idx) : ix6_1 y = ix1 (rowOfGate y) :=
  funext fun a => Fin.ext (by match a with | ⟨0, _⟩ => rfl)
theorem gate_bias (y : S1x512x1.Idx) : ix6_2 y = atBias :=
  funext fun a => Fin.ext (by match a with | ⟨0, _⟩ => rfl | ⟨1, _⟩ => rfl)

/-- The gate's logit of block row `r`: the two row sums, then the bias. -/
def blockLogit (x0 x1 : Vec Ideal S1x512x2048 .f32) (w0 w1 : Vec Ideal S1x2048 .f32) (b : Vec Ideal S1x1 .f32) (r : Fin 512) : EReal :=
  (∑ k : Fin 2048, x0 (atRow r k) * w0 (atFeat k)) + (∑ k : Fin 2048, x1 (atRow r k) * w1 (atFeat k)) + b atBias

/-- THE BLEND BLOCK at an entry `y`: `x0 + gate · (x1 − x0)` there, the gate that of `y`'s row. -/
theorem blendBlock_apply (x0 x1 : Vec Ideal S1x512x2048 .f32) (w0 w1 : Vec Ideal S1x2048 .f32) (b : Vec Ideal S1x1 .f32)
    (y : S1x512x2048.Idx) :
    out0_5 x0 x1 w0 w1 b y = x0 y + Ideal.logistic (blockLogit x0 x1 w0 w1 b (rowOf y)) * (x1 y - x0 y) := by
  unfold out0_5
  simp only [View.ld_unit_zero (S := S1x512x2048) offsets3, View.ld_unit_zero (S := S1x2048) offsets2,
    View.ld_unit_zero (S := S1x1) offsets2]
  refine (canon5_eq (F := Ideal) x0 w0 x1 w1 b y).trans ?_
  unfold E5
  rw [entry_self, entry_self', entry_self'', entry_row, entry_row', entry_bias, rowSum_apply, rowSum_apply]
  rfl

/-- THE GATE BLOCK at an entry `y`: the gate of `y`'s row. -/
theorem gateBlock_apply (x0 x1 : Vec Ideal S1x512x2048 .f32) (w0 w1 : Vec Ideal S1x2048 .f32) (b : Vec Ideal S1x1 .f32)
    (y : S1x512x1.Idx) :
    out0_6 x0 x1 w0 w1 b y = Ideal.logistic (blockLogit x0 x1 w0 w1 b (rowOfGate y)) := by
  unfold out0_6
  simp only [View.ld_unit_zero (S := S1x512x2048) offsets3, View.ld_unit_zero (S := S1x2048) offsets2,
    View.ld_unit_zero (S := S1x1) offsets2]
  refine (canon6_eq (F := Ideal) x0 w0 x1 w1 b y).trans ?_
  unfold E6
  rw [gate_row, gate_row', gate_bias, rowSum_apply, rowSum_apply]
  rfl

end Cert.KernelIdeal.BlendValue

end
-- ==== Proof.ArgumentBlocks.lean ====
/-
  The input blocks of a grid point as entries of the four argument arrays.

  Grid point `t` of the 8 × 4 grid handles batch `p` and the block of 512 time steps number `s`.  Its two hidden-state
  blocks are rows `512·s … 512·s + 511` of batch `p` of `orig` and `dag`, with all 2048 features, at the same block
  position as the two output blocks; the weight rows and the bias are the same whole arrays at every point.  Before the
  kernel runs, the host slices the weight column into its two halves and lays each out as a row of 2048 entries, and lays
  the one-entry bias out as a 1 × 1 array: entry (0, k) of the first row is `w[k, 0]`, of the second `w[2048 + k, 0]`.
-/
import proofs.«152568_j8306466750965_1_alg».proof.Proof.BlockEntries
import Idealize.ShloMosaic.Lib.StableHlo.Run

noncomputable section

namespace Cert.KernelIdeal.BlendValue

open Cert.KernelIdeal Cert.KernelIdeal.Gen Cert.GateBlend
open Idealize.ShloMosaic Idealize.ShloMosaic.TcCoe Idealize.ShloMosaic.ValueIdx Idealize.SL.Sem Idealize.ShloMosaic.StableHlo
open scoped BigOperators

variable (m : (ℓ : Loc nD τ sig) → Buf (Elt Ideal) ℓ)

/-! ## The index maps over the grid -/

/-- The two hidden-state input windows and the gate window sit at the blend window's block position on the batch and
    time axes; no window moves along the feature axis; the weight rows and the bias stay at block (0, 0). -/
theorem index_facts : ∀ t : Fin cfg0.N,
    win0_0.index t (0 : Fin 3) = win0_5.index t (0 : Fin 3) ∧ win0_0.index t (1 : Fin 3) = win0_5.index t (1 : Fin 3)
    ∧ win0_0.index t (2 : Fin 3) = 0
    ∧ win0_1.index t (0 : Fin 3) = win0_5.index t (0 : Fin 3) ∧ win0_1.index t (1 : Fin 3) = win0_5.index t (1 : Fin 3)
    ∧ win0_1.index t (2 : Fin 3) = 0
    ∧ win0_5.index t (2 : Fin 3) = 0
    ∧ win0_6.index t (0 : Fin 3) = win0_5.index t (0 : Fin 3) ∧ win0_6.index t (1 : Fin 3) = win0_5.index t (1 : Fin 3)
    ∧ win0_6.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-! ## The weight rows and the bias, through the host's slices and reshapes -/

/-- Entry (0, k) of the first weight row is row `k` of the weight column. -/
theorem weightRowOrig_apply (c : Dev nD) (k : Fin 2048) :
    (V m c main_v1 : Vec Ideal S1x2048 .f32) (atFeat k) = (m ((c : Thread nD τ).loc main_arg2) : Vec Ideal S4096x1 .f32) (wOrig k) := by
  have e : (V m c main_v1 : Vec Ideal S1x2048 .f32)
      = shapeCast S1x2048 (extractStridedSlice S2048x1 ![0, 0] (m ((c : Thread nD τ).loc main_arg2)) slices_S4096x1_S2048x1_0_0) shapeCasts_S2048x1_S1x2048 := by
    dsimp only [V, hostOps0]; after_results; rfl
  rw [e]
  refine (shapeCast_apply _ _ (atFeat k) (ix2 k (0 : Fin 1) : S2048x1.Idx) ?_).trans ?_
  · rw [Shape.rowMajor_val_two, Shape.rowMajor_val_two]
    show k.val * 1 + (0 : Fin 1).val = (0 : Fin 1).val * 2048 + k.val
    simp
  · exact extractStridedSlice_apply ![0, 0] _ slices_S4096x1_S2048x1_0_0 (ix2 k (0 : Fin 1) : S2048x1.Idx) (wOrig k) (fun a => match a with
      | ⟨0, _⟩ => by show k.val = 0 + k.val; omega
      | ⟨1, _⟩ => by show (0 : Fin 1).val = 0 + (0 : Fin 1).val; omega)

/-- Entry (0, k) of the second weight row is row `2048 + k` of the weight column. -/
theorem weightRowDag_apply (c : Dev nD) (k : Fin 2048) :
    (V m c main_v3 : Vec Ideal S1x2048 .f32) (atFeat k) = (m ((c : Thread nD τ).loc main_arg2) : Vec Ideal S4096x1 .f32) (wDag k) := by
  have e : (V m c main_v3 : Vec Ideal S1x2048 .f32)
      = shapeCast S1x2048 (extractStridedSlice S2048x1 ![2048, 0] (m ((c : Thread nD τ).loc main_arg2)) slices_S4096x1_S2048x1_2048_0) shapeCasts_S2048x1_S1x2048 := by
    dsimp only [V, hostOps0]; after_results; rfl
  rw [e]
  refine (shapeCast_apply _ _ (atFeat k) (ix2 k (0 : Fin 1) : S2048x1.Idx) ?_).trans ?_
  · rw [Shape.rowMajor_val_two, Shape.rowMajor_val_two]
    show k.val * 1 + (0 : Fin 1).val = (0 : Fin 1).val * 2048 + k.val
    simp
  · exact extractStridedSlice_apply ![2048, 0] _ slices_S4096x1_S2048x1_2048_0 (ix2 k (0 : Fin 1) : S2048x1.Idx) (wDag k) (fun a => match a with
      | ⟨0, _⟩ => by show 2048 + k.val = 2048 + k.val; omega
      | ⟨1, _⟩ => by show (0 : Fin 1).val = 0 + (0 : Fin 1).val; omega)

/-- The one entry of the 1 × 1 bias array is the bias's one entry. -/
theorem biasCell_apply (c : Dev nD) :
    (V m c main_v4 : Vec Ideal S1x1 .f32) atBias = (m ((c : Thread nD τ).loc main_arg3) : Vec Ideal S1 .f32) (ix1 (0 : Fin 1)) := by
  have e : (V m c main_v4 : Vec Ideal S1x1 .f32) = shapeCast S1x1 (m ((c : Thread nD τ).loc main_arg3)) shapeCasts_S1_S1x1 := by
    dsimp only [V, hostOps0]; after_results; rfl
  rw [e]
  refine shapeCast_apply _ _ atBias (ix1 (0 : Fin 1) : S1.Idx) ?_
  rw [Shape.rowMajor_val_one, Shape.rowMajor_val_two]
  show (0 : Fin 1).val = (0 : Fin 1).val * 1 + (0 : Fin 1).val
  simp

/-! ## The input blocks of a grid point -/

/-- The five input blocks of grid point `t`, at their literal shapes. -/
abbrev origBlock (c : Dev nD) (t : Fin cfg0.N) : Vec Ideal S1x512x2048 .f32 := iblk m c 0 t
abbrev dagBlock (c : Dev nD) (t : Fin cfg0.N) : Vec Ideal S1x512x2048 .f32 := iblk m c 1 t
abbrev weightOrigBlock (c : Dev nD) (t : Fin cfg0.N) : Vec Ideal S1x2048 .f32 := iblk m c 2 t
abbrev weightDagBlock (c : Dev nD) (t : Fin cfg0.N) : Vec Ideal S1x2048 .f32 := iblk m c 3 t
abbrev biasBlock (c : Dev nD) (t : Fin cfg0.N) : Vec Ideal S1x1 .f32 := iblk m c 4 t

/-- Where entry `z` of the blend block of point `t` lies in the [8, 2048, 2048] array. -/
abbrev blendAt (t : Fin cfg0.N) (z : S1x512x2048.Idx) : S8x2048x2048.Idx := ((cfg0.win 5).blk t).view.emb z
/-- Where entry `z` of the gate block of point `t` lies in the [8, 2048, 1] array. -/
abbrev gateAt (t : Fin cfg0.N) (z : S1x512x1.Idx) : S8x2048x1.Idx := ((cfg0.win 6).blk t).view.emb z

/-- An entry of the `orig` block is `orig` at the blend block's position: the two windows' index maps are the same
    function of the grid point. -/
theorem origBlock_apply (c : Dev nD) (t : Fin cfg0.N) (z : S1x512x2048.Idx) :
    origBlock m c t z = (m ((c : Thread nD τ).loc main_arg0) : Vec Ideal S8x2048x2048 .f32) (blendAt t z) := by
  show V m c main_arg0 (((cfg0.win 0).blk t).view.emb z) = _
  rw [V_main_arg0]
  rfl

/-- An entry of the `dag` block is `dag` at the blend block's position. -/
theorem dagBlock_apply (c : Dev nD) (t : Fin cfg0.N) (z : S1x512x2048.Idx) :
    dagBlock m c t z = (m ((c : Thread nD τ).loc main_arg1) : Vec Ideal S8x2048x2048 .f32) (blendAt t z) := by
  show V m c main_arg1 (((cfg0.win 1).blk t).view.emb z) = _
  rw [V_main_arg1]
  rfl

/-- An entry of the first weight block is the weight column's row `k`. -/
theorem weightOrigBlock_apply (c : Dev nD) (t : Fin cfg0.N) (k : Fin 2048) :
    weightOrigBlock m c t (atFeat k) = (m ((c : Thread nD τ).loc main_arg2) : Vec Ideal S4096x1 .f32) (wOrig k) := by
  obtain ⟨-, -, -, -, -, -, -, -, -, -, e0, e1, -⟩ := index_facts t
  show V m c main_v1 (((cfg0.win 2).blk t).view.emb (atFeat k)) = _
  have h : ((cfg0.win 2).blk t).view.emb (atFeat k) = atFeat k := by
    funext a; apply Fin.ext
    match a with
    | ⟨0, _⟩ => show win0_2.index t (0 : Fin 2) * 1 + 1 * (0 : Fin 1).val = (0 : Fin 1).val; rw [e0]; simp
    | ⟨1, _⟩ => show win0_2.index t (1 : Fin 2) * 2048 + 1 * k.val = k.val; rw [e1]; omega
  rw [h]
  exact weightRowOrig_apply m c k

/-- An entry of the second weight block is the weight column's row `2048 + k`. -/
theorem weightDagBlock_apply (c : Dev nD) (t : Fin cfg0.N) (k : Fin 2048) :
    weightDagBlock m c t (atFeat k) = (m ((c : Thread nD τ).loc main_arg2) : Vec Ideal S4096x1 .f32) (wDag k) := by
  obtain ⟨-, -, -, -, -, -, -, -, -, -, -, -, e0, e1, -⟩ := index_facts t
  show V m c main_v3 (((cfg0.win 3).blk t).view.emb (atFeat k)) = _
  have h : ((cfg0.win 3).blk t).view.emb (atFeat k) = atFeat k := by
    funext a; apply Fin.ext
    match a with
    | ⟨0, _⟩ => show win0_3.index t (0 : Fin 2) * 1 + 1 * (0 : Fin 1).val = (0 : Fin 1).val; rw [e0]; simp
    | ⟨1, _⟩ => show win0_3.index t (1 : Fin 2) * 2048 + 1 * k.val = k.val; rw [e1]; omega
  rw [h]
  exact weightRowDag_apply m c k

/-- The bias block's one entry is the bias. -/
theorem biasBlock_apply (c : Dev nD) (t : Fin cfg0.N) :
    biasBlock m c t atBias = (m ((c : Thread nD τ).loc main_arg3) : Vec Ideal S1 .f32) (ix1 (0 : Fin 1)) := by
  obtain ⟨-, -, -, -, -, -, -, -, -, -, -, -, -, -, e0, e1⟩ := index_facts t
  show V m c main_v4 (((cfg0.win 4).blk t).view.emb atBias) = _
  have h : ((cfg0.win 4).blk t).view.emb atBias = atBias := by
    funext a; apply Fin.ext
    match a with
    | ⟨0, _⟩ => show win0_4.index t (0 : Fin 2) * 1 + 1 * (0 : Fin 1).val = (0 : Fin 1).val; rw [e0]; simp
    | ⟨1, _⟩ => show win0_4.index t (1 : Fin 2) * 1 + 1 * (0 : Fin 1).val = (0 : Fin 1).val; rw [e1]; simp
  rw [h]
  exact biasCell_apply m c

end Cert.KernelIdeal.BlendValue

end
-- ==== Proof.ResultArrays.lean ====
/-
  The kernel's two result arrays after the run are the specification's blend and gates of the four arguments.

  Grid point `t` writes back one block of each result: batch `p`, time steps `512·s … 512·s + 511`.  By the block
  lemmas an entry of the written block is the blend (or the gate) computed from row `r` of the point's input blocks, and
  those rows are the rows `(p, 512·s + r)` of `orig` and `dag`: so the point writes exactly the block of the
  specification's array at its position.  The 32 points' blocks tile each result array (8 batches × 4 blocks of 512 time
  steps, all features), hence each array ends as the specification's array everywhere.
-/
import proofs.«152568_j8306466750965_1_alg».proof.Proof.ArgumentBlocks

noncomputable section

namespace Cert.KernelIdeal.BlendValue

open Cert.KernelIdeal Cert.KernelIdeal.Gen Cert.GateBlend
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ) (ρ : Dev nD → PrngReg)

/-- The four argument arrays of core `c`, at their literal shapes. -/
abbrev argOrig (c : Dev nD) : Vec Ideal S8x2048x2048 .f32 := m ((c : Thread nD τ).loc main_arg0)
abbrev argDag (c : Dev nD) : Vec Ideal S8x2048x2048 .f32 := m ((c : Thread nD τ).loc main_arg1)
abbrev argWeights (c : Dev nD) : Vec Ideal S4096x1 .f32 := m ((c : Thread nD τ).loc main_arg2)
abbrev argBias (c : Dev nD) : Vec Ideal S1 .f32 := m ((c : Thread nD τ).loc main_arg3)

/-- THE LOGIT OF A BLOCK ROW is the specification's logit at the row's batch and time step: row `r` of the blocks of
    point `t` is time step `512·s + r` of batch `p`, and the weight rows and the bias are the whole arrays. -/
theorem blockLogit_eq (c : Dev nD) (t : Fin cfg0.N) (r : Fin 512) (p : Fin 8) (q : Fin 2048)
    (hp : p.val = win0_5.index t (0 : Fin 3)) (hq : q.val = win0_5.index t (1 : Fin 3) * 512 + r.val) :
    blockLogit (origBlock m c t) (dagBlock m c t) (weightOrigBlock m c t) (weightDagBlock m c t) (biasBlock m c t) r
      = logit (argOrig m c) (argDag m c) (argWeights m c) (argBias m c) p q := by
  obtain ⟨-, -, -, -, -, -, e6, -⟩ := index_facts t
  have hrow : ∀ k : Fin 2048, blendAt t (atRow r k) = ix3 p q k := fun k => by
    funext a; apply Fin.ext
    match a with
    | ⟨0, _⟩ => show win0_5.index t (0 : Fin 3) * 1 + 1 * (0 : Fin 1).val = p.val; rw [hp]; simp
    | ⟨1, _⟩ => show win0_5.index t (1 : Fin 3) * 512 + 1 * r.val = q.val; omega
    | ⟨2, _⟩ => show win0_5.index t (2 : Fin 3) * 2048 + 1 * k.val = k.val; omega
  unfold blockLogit logit
  rw [biasBlock_apply]
  congr 1
  congr 1
  · refine Finset.sum_congr rfl fun k _ => ?_
    rw [origBlock_apply, weightOrigBlock_apply, hrow]
  · refine Finset.sum_congr rfl fun k _ => ?_
    rw [dagBlock_apply, weightDagBlock_apply, hrow]

/-! ## What each point writes back -/

/-- Point `t` writes back block `t` of the specification's blend. -/
theorem flushed_blend (c : Dev nD) (t : Fin cfg0.N) :
    (dats m 0 c).flushed 5 t
      = ((cfg0.win 5).blk t).view.read (Elt Ideal) (mixed (argOrig m c) (argDag m c) (argWeights m c) (argBias m c)) := by
  rw [ValueP.flushed5]
  funext y
  show out0_5 (origBlock m c t) (dagBlock m c t) (weightOrigBlock m c t) (weightDagBlock m c t) (biasBlock m c t) y
    = mixed (argOrig m c) (argDag m c) (argWeights m c) (argBias m c) (blendAt t y)
  refine (blendBlock_apply (origBlock m c t) (dagBlock m c t) (weightOrigBlock m c t) (weightDagBlock m c t) (biasBlock m c t) y).trans ?_
  have h0 : (y 0).val < 1 := (y 0).isLt
  rw [origBlock_apply, dagBlock_apply,
    blockLogit_eq m c t (rowOf y) (blendAt t y 0) (blendAt t y 1)
      (by show win0_5.index t (0 : Fin 3) * 1 + 1 * (y 0).val = win0_5.index t (0 : Fin 3); omega)
      (by show win0_5.index t (1 : Fin 3) * 512 + 1 * (y 1).val = win0_5.index t (1 : Fin 3) * 512 + (y 1).val; omega)]
  rfl

/-- Point `t` writes back block `t` of the specification's gates. -/
theorem flushed_gates (c : Dev nD) (t : Fin cfg0.N) :
    (dats m 0 c).flushed 6 t
      = ((cfg0.win 6).blk t).view.read (Elt Ideal) (gates (argOrig m c) (argDag m c) (argWeights m c) (argBias m c)) := by
  obtain ⟨-, -, -, -, -, -, -, e0, e1, -⟩ := index_facts t
  rw [ValueP.flushed6]
  funext y
  show out0_6 (origBlock m c t) (dagBlock m c t) (weightOrigBlock m c t) (weightDagBlock m c t) (biasBlock m c t) y
    = gates (argOrig m c) (argDag m c) (argWeights m c) (argBias m c) (gateAt t y)
  refine (gateBlock_apply (origBlock m c t) (dagBlock m c t) (weightOrigBlock m c t) (weightDagBlock m c t) (biasBlock m c t) y).trans ?_
  have h0 : (y 0).val < 1 := (y 0).isLt
  rw [blockLogit_eq m c t (rowOfGate y) (gateAt t y 0) (gateAt t y 1)
      (by show win0_6.index t (0 : Fin 3) * 1 + 1 * (y 0).val = win0_5.index t (0 : Fin 3); omega)
      (by show win0_6.index t (1 : Fin 3) * 512 + 1 * (y 1).val = win0_5.index t (1 : Fin 3) * 512 + (y 1).val; omega)]
  rfl

/-! ## The blocks tile the result arrays -/

/-- Every pair of a batch and a block of 512 time steps is some grid point's block position. -/
theorem index_onto : ∀ (p : Fin 8) (s : Fin 4), ∃ t : Fin cfg0.N,
    win0_5.index t = ![p.val, s.val, 0] ∧ win0_6.index t = ![p.val, s.val, 0] :=
  (by decide +kernel : ∀ (p : Fin 8) (s : Fin 4), ∃ t : Fin grid0.N,
    win0_5.index t = ![p.val, s.val, 0] ∧ win0_6.index t = ![p.val, s.val, 0])

/-- An entry of the blend array lies in point `t`'s block iff each coordinate lies in the block's range. -/
theorem mem_blendBlock (t : Fin cfg0.N) (i : S8x2048x2048.Idx) :
    i ∈ ((cfg0.win 5).blk t).view.set ↔ ∀ a : Fin 3, win0_5.index t a * S1x512x2048.size a ≤ (i a).val
      ∧ (i a).val < win0_5.index t a * S1x512x2048.size a + S1x512x2048.size a := by
  show i ∈ ((View.whole main_v5_0).slice (win0_5.rect t)).set ↔ _
  rw [View.set_slice_whole, Rect.mem_set_unit]
  exact Iff.rfl

/-- The same for the gate array. -/
theorem mem_gateBlock (t : Fin cfg0.N) (i : S8x2048x1.Idx) :
    i ∈ ((cfg0.win 6).blk t).view.set ↔ ∀ a : Fin 3, win0_6.index t a * S1x512x1.size a ≤ (i a).val
      ∧ (i a).val < win0_6.index t a * S1x512x1.size a + S1x512x1.size a := by
  show i ∈ ((View.whole main_v5_1).slice (win0_6.rect t)).set ↔ _
  rw [View.set_slice_whole, Rect.mem_set_unit]
  exact Iff.rfl

/-- Every entry of the blend array is in the block of the point at its batch and its time step's block of 512. -/
theorem blend_covered (i : S8x2048x2048.Idx) :
    ∃ t : Fin cfg0.N, (cfg0.win 5).flush t = true ∧ i ∈ ((cfg0.win 5).blk t).view.set := by
  have hi0 : (i 0).val < 8 := (i 0).isLt
  have hi1 : (i 1).val < 2048 := (i 1).isLt
  have hi2 : (i 2).val < 2048 := (i 2).isLt
  obtain ⟨t, ht, -⟩ := index_onto ⟨(i 0).val, hi0⟩ ⟨(i 1).val / 512, by omega⟩
  have q0 : win0_5.index t (0 : Fin 3) = (i 0).val := congrFun ht 0
  have q1 : win0_5.index t (1 : Fin 3) = (i 1).val / 512 := congrFun ht 1
  have q2 : win0_5.index t (2 : Fin 3) = 0 := congrFun ht 2
  refine ⟨t, flush0_5 t, ?_⟩
  rw [mem_blendBlock]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 2048 ≤ (i 2).val ∧ (i 2).val < win0_5.index t (2 : Fin 3) * 2048 + 2048; omega

/-- Every entry of the gate array likewise. -/
theorem gates_covered (i : S8x2048x1.Idx) :
    ∃ t : Fin cfg0.N, (cfg0.win 6).flush t = true ∧ i ∈ ((cfg0.win 6).blk t).view.set := by
  have hi0 : (i 0).val < 8 := (i 0).isLt
  have hi1 : (i 1).val < 2048 := (i 1).isLt
  have hi2 : (i 2).val < 1 := (i 2).isLt
  obtain ⟨t, -, ht⟩ := index_onto ⟨(i 0).val, hi0⟩ ⟨(i 1).val / 512, by omega⟩
  have q0 : win0_6.index t (0 : Fin 3) = (i 0).val := congrFun ht 0
  have q1 : win0_6.index t (1 : Fin 3) = (i 1).val / 512 := congrFun ht 1
  have q2 : win0_6.index t (2 : Fin 3) = 0 := congrFun ht 2
  refine ⟨t, flush0_6 t, ?_⟩
  rw [mem_gateBlock]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 512 ≤ (i 1).val ∧ (i 1).val < win0_6.index t (1 : Fin 3) * 512 + 512; omega
  | ⟨2, _⟩ => show win0_6.index t (2 : Fin 3) * 1 ≤ (i 2).val ∧ (i 2).val < win0_6.index t (2 : Fin 3) * 1 + 1; omega

/-! ## The result arrays and the run -/

/-- The blend array after the run is the specification's blend of the arguments. -/
theorem final_blend (c : Dev nD) :
    (dats m 0 c).arrAt 5 cfg0.N = mixed (argOrig m c) (argDag m c) (argWeights m c) (argBias m c) :=
  (dats m 0 c).arrAt_eq_of_cover 5 (mixed (argOrig m c) (argDag m c) (argWeights m c) (argBias m c))
    (fun t _ => flushed_blend m c t) blend_covered

/-- The gate array after the run is the specification's gates of the arguments. -/
theorem final_gates (c : Dev nD) :
    (dats m 0 c).arrAt 6 cfg0.N = gates (argOrig m c) (argDag m c) (argWeights m c) (argBias m c) :=
  (dats m 0 c).arrAt_eq_of_cover 6 (gates (argOrig m c) (argDag m c) (argWeights m c) (argBias m c))
    (fun t _ => flushed_gates m c t) gates_covered

/-- Every weakly fair run of the kernel program ends with the two results at the specification's arrays of the
    arguments, the arguments unchanged. -/
theorem run : θ_run defs (onTc (τ := τ) (main (F := Ideal))) ⟨m, fun _ => 0, ρ⟩ fun r => ∀ c : Dev nD,
      r.2.mem ((c : Thread nD τ).loc main_v5_0) = mixed (argOrig m c) (argDag m c) (argWeights m c) (argBias m c)
      ∧ r.2.mem ((c : Thread nD τ).loc main_v5_1) = gates (argOrig m c) (argDag m c) (argWeights m c) (argBias m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_blend m c), (h c).2.1.trans (final_gates m c), (h c).2.2⟩)
    (ValueP.run_blocks m ρ)

end Cert.KernelIdeal.BlendValue

end
-- ==== Proof.lean ====
/-
  The gate-blend kernel against its jnp reference, over the extended reals.

  Both programs take two hidden-state arrays `orig`, `dag` of shape [8, 2048, 2048], a weight column of shape [4096, 1]
  and a one-entry bias, and return the blend `orig + gate · (dag − orig)` and the gates, where for each batch and time
  step `gate = logistic (Σ_k orig_k · w_k + Σ_k dag_k · w_{2048+k} + b)`.

  The kernel runs a grid of 8 × 4 points, each on a block of 512 time steps of one batch with all features.  It takes
  each row's two weighted sums as lane sums started from zero, adds them and the bias, applies the logistic function, and
  stores the gate and the blend.  The reference contracts the whole arrays with the two halves of the weight column, adds
  the bias, and spells the logistic function as `1 / (1 + exp (− x))`.  At the ideal values a lane sum from zero and a
  contraction are the same plain sum of products, and the quotient is the logistic function by definition, so both
  programs compute the specification's two arrays (Proof/GateBlendSpec.lean) term by term; no law of arithmetic beyond
  `0 + x = x` enters, and the inputs' finiteness is not used.

  The kernel's result arrays are read off its run block by block (Proof/BlockEntries.lean, Proof/ArgumentBlocks.lean,
  Proof/ResultArrays.lean); the reference's results are read one host operation at a time (Proof/ReferenceIsBlend.lean).
  The idealization rewrote no operation of the kernel, so the kernel at the ideal values is its own text.
-/
import proofs.«152568_j8306466750965_1_alg».proof.Defs
import proofs.«152568_j8306466750965_1_alg».proof.Proof.Gen.Kernel
import proofs.«152568_j8306466750965_1_alg».proof.Proof.Gen.Kernel.Skeleton
import proofs.«152568_j8306466750965_1_alg».proof.Proof.Gen.Kernel.Launch
import proofs.«152568_j8306466750965_1_alg».proof.Proof.Gen.Kernel.Points
import proofs.«152568_j8306466750965_1_alg».proof.Proof.Gen.Kernel.Frame
import proofs.«152568_j8306466750965_1_alg».proof.Proof.Gen.KernelIdeal
import proofs.«152568_j8306466750965_1_alg».proof.Proof.Gen.KernelIdeal.Skeleton
import proofs.«152568_j8306466750965_1_alg».proof.Proof.Gen.KernelIdeal.Launch
import proofs.«152568_j8306466750965_1_alg».proof.Proof.Gen.KernelIdeal.Points
import proofs.«152568_j8306466750965_1_alg».proof.Proof.Gen.KernelIdeal.Frame
import proofs.«152568_j8306466750965_1_alg».proof.Proof.Gen.ReferenceIdeal
import proofs.«152568_j8306466750965_1_alg».proof.Proof.Gen.Pre_finite_inputs
import proofs.«152568_j8306466750965_1_alg».proof.Proof.KernelIdealValueP
import proofs.«152568_j8306466750965_1_alg».proof.Proof.Gen.ReferenceIdeal.Run
import proofs.«152568_j8306466750965_1_alg».proof.Proof.Gen.ReferenceIdeal.Read
import proofs.«152568_j8306466750965_1_alg».proof.Proof.ReferenceIsBlend
import proofs.«152568_j8306466750965_1_alg».proof.Proof.ResultArrays
import Idealize.ShloMosaic.Adequacy
import Idealize.ShloMosaic.Init

noncomputable section

namespace Cert.Proof

open Idealize.ShloMosaic Idealize.ShloMosaic.TcCoe Idealize.SL.Sem Cert.GateBlend

/-- The word-level kernel runs without a fault and keeps its arguments. -/
theorem frame_kernel : Cert.frame_Kernel := fun m ρ _ => Cert.Kernel.Gen.frame m ρ

/-- So does the kernel at the ideal values. -/
theorem frame_kernelIdeal : Cert.frame_KernelIdeal := fun m ρ _ => Cert.KernelIdeal.Gen.frame m ρ

/-- The reference is a straight line of host operations: its run terminates with the arguments kept. -/
theorem frame_reference : Cert.frame_ReferenceIdeal := fun m ρ _ =>
  (θ_run Cert.ReferenceIdeal.defs _ _).mono (fun _ h c => (h c).2.2) (Cert.ReferenceIdeal.Value.run (F := Ideal) m ρ)

/-- From arguments that agree, both programs end with the specification's blend and gates of those arguments. -/
theorem algebraic : Cert.algebraic_KernelIdeal_ReferenceIdeal := by
  intro m ρ m' ρ' _ hagree
  refine ⟨fun c => mixed (Cert.KernelIdeal.BlendValue.argOrig m c) (Cert.KernelIdeal.BlendValue.argDag m c)
      (Cert.KernelIdeal.BlendValue.argWeights m c) (Cert.KernelIdeal.BlendValue.argBias m c),
    fun c => gates (Cert.KernelIdeal.BlendValue.argOrig m c) (Cert.KernelIdeal.BlendValue.argDag m c)
      (Cert.KernelIdeal.BlendValue.argWeights m c) (Cert.KernelIdeal.BlendValue.argBias m c),
    Cert.KernelIdeal.BlendValue.run m ρ, ?_⟩
  refine (θ_run Cert.ReferenceIdeal.defs _ _).mono (fun _ h c => ?_) (Cert.ReferenceIdeal.Value.run (F := Ideal) m' ρ')
  obtain ⟨hmixed, hgates, hkept⟩ := h c
  obtain ⟨a0, a1, a2, a3⟩ := hagree c
  refine ⟨hmixed.trans ?_, hgates.trans ?_, hkept⟩
  · rw [Cert.ReferenceIdeal.Read.val_main_v17_eq, Cert.ReferenceIdeal.RefValue.mixed_eq, a0, a1, a2, a3]
  · rw [Cert.ReferenceIdeal.Read.val_main_v13_eq, Cert.ReferenceIdeal.RefValue.gates_eq, a0, a1, a2, a3]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
